-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S256x128 : Shape := ⟨2, ![256, 128]⟩
abbrev S128x128 : Shape := ⟨2, ![128, 128]⟩
abbrev S128 : Shape := ⟨1, ![128]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S16x4096x128 .f32) (main_arg1 : FVec F S256x128 .f32) (main_arg2 : FVec F S128x128 .f32) (main_arg3 : FVec F S128 .f32) (main_arg4 : FVec F S128x128 .f32) (main_arg5 : FVec F S128 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S16x4096x128 : Shape := ⟨3, ![16, 4096, 128]⟩
abbrev S256x128 : Shape := ⟨2, ![256, 128]⟩
abbrev S128x128 : Shape := ⟨2, ![128, 128]⟩
abbrev S128 : Shape := ⟨1, ![128]⟩
abbrev S1x128 : Shape := ⟨2, ![1, 128]⟩
abbrev S1x4096x128 : Shape := ⟨3, ![1, 4096, 128]⟩
abbrev S4096x128 : Shape := ⟨2, ![4096, 128]⟩
abbrev S4096x256 : Shape := ⟨2, ![4096, 256]⟩
abbrev S4096 : Shape := ⟨1, ![4096]⟩
abbrev S4096x1 : Shape := ⟨2, ![4096, 1]⟩

abbrev nBuf : Space → Nat
  | .hbm => 17
  | .vmem => 6
  | .smem => 0
  | _ => 0

abbrev bufTy : (tb : Table) → Fin (tcTables nBuf tb) → BufTy
  | .hbm, ⟨0, _⟩ => ⟨S16x4096x128, .f32⟩
  | .hbm, ⟨1, _⟩ => ⟨S256x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S256x128, .f32⟩
  | .hbm, ⟨8, _⟩ => ⟨S1x128, .f32⟩
  | .hbm, ⟨9, _⟩ => ⟨S256x128, .f32⟩
  | .hbm, ⟨10, _⟩ => ⟨S256x128, .f32⟩
  | .hbm, ⟨11, _⟩ => ⟨S128x128, .f32⟩
  | .hbm, ⟨12, _⟩ => ⟨S256x128, .f32⟩
  | .hbm, ⟨13, _⟩ => ⟨S1x128, .f32⟩
  | .hbm, ⟨14, _⟩ => ⟨S256x128, .f32⟩
  | .hbm, ⟨15, _⟩ => ⟨S256x128, .f32⟩
  | .hbm, ⟨16, _⟩ => ⟨S16x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S256x128, .f32⟩
  | .local _ .vmem, ⟨3, _⟩ => ⟨S256x128, .f32⟩
  | .local _ .vmem, ⟨4, _⟩ => ⟨S1x4096x128, .f32⟩
  | .local _ .vmem, ⟨5, _⟩ => ⟨S1x4096x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S128x128_S128x128_1_0 : S128x128.Transposes [1, 0] S128x128
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S4096x256_S4096 : S4096x256.Reduces [1] S4096
  shapeCasts_S4096_S4096x1 : S4096.ShapeCasts S4096x1
  broadcasts_S4096x1_S4096x256 : S4096x1.Broadcasts S4096x256
  broadcasts_S4096x1_S4096x128 : S4096x1.Broadcasts S4096x128
  shapeCasts_S4096x128_S1x4096x128 : S4096x128.ShapeCasts S1x4096x128
  dot_S256x128_S128x128_S256x128_1_0_0_1_n_n_wf : DotDims.WF S256x128 S128x128 S256x128 [1] [0] [0] [1] [] []
  dot_S4096x128_S256x128_S4096x256_1_1_0_0_n_n_wf : DotDims.WF S4096x128 S256x128 S4096x256 [1] [1] [0] [0] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S16x4096x128.size a
  hwx0_0 : ∀ i : grid0.Coords, EltTy.bits .f32 = 32 ∨ (Rect.block (s := S16x4096x128) S1x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S16x4096x128.size a
  hwx0_3 : ∀ i : grid0.Coords, EltTy.bits .f32 = 32 ∨ (Rect.block (s := S16x4096x128) S1x4096x128.size (cc0_transform_3 i) (hinb0_3 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S4096x128_S256x128_S4096x256_1_1_0_0_n_n : DotDims S4096x128 S256x128 S4096x256 where
  lhsContracting := [1]
  rhsContracting := [1]
  lhsNonContracting := [0]
  rhsNonContracting := [0]
  lhsBatch := []
  rhsBatch := []
  wf := dot_S4096x128_S256x128_S4096x256_1_1_0_0_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S256x128 : Shape := ⟨2, ![256, 128]⟩
abbrev S128x128 : Shape := ⟨2, ![128, 128]⟩
abbrev S128 : Shape := ⟨1, ![128]⟩
abbrev S1x128 : Shape := ⟨2, ![1, 128]⟩
abbrev S16x4096x256 : Shape := ⟨3, ![16, 4096, 256]⟩
abbrev S_ : Shape := ⟨0, ![]⟩
abbrev S16x4096 : Shape := ⟨2, ![16, 4096]⟩
abbrev S16x4096x1 : Shape := ⟨3, ![16, 4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S256x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S256x128, .f32⟩
  | .hbm, ⟨8, _⟩ => ⟨S1x128, .f32⟩
  | .hbm, ⟨9, _⟩ => ⟨S256x128, .f32⟩
  | .hbm, ⟨10, _⟩ => ⟨S256x128, .f32⟩
  | .hbm, ⟨11, _⟩ => ⟨S128x128, .f32⟩
  | .hbm, ⟨12, _⟩ => ⟨S256x128, .f32⟩
  | .hbm, ⟨13, _⟩ => ⟨S1x128, .f32⟩
  | .hbm, ⟨14, _⟩ => ⟨S256x128, .f32⟩
  | .hbm, ⟨15, _⟩ => ⟨S256x128, .f32⟩
  | .hbm, ⟨16, _⟩ => ⟨S16x4096x256, .f32⟩
  | .hbm, ⟨17, _⟩ => ⟨S_, .f32⟩
  | .hbm, ⟨18, _⟩ => ⟨S16x4096, .f32⟩
  | .hbm, ⟨19, _⟩ => ⟨S_, .f32⟩
  | .hbm, ⟨20, _⟩ => ⟨S16x4096, .f32⟩
  | .hbm, ⟨21, _⟩ => ⟨S16x4096, .f32⟩
  | .hbm, ⟨22, _⟩ => ⟨S16x4096x1, .f32⟩
  | .hbm, ⟨23, _⟩ => ⟨S16x4096x256, .f32⟩
  | .hbm, ⟨24, _⟩ => ⟨S16x4096x256, .f32⟩
  | .hbm, ⟨25, _⟩ => ⟨S16x4096x256, .f32⟩
  | .hbm, ⟨26, _⟩ => ⟨S_, .f32⟩
  | .hbm, ⟨27, _⟩ => ⟨S16x4096, .f32⟩
  | .hbm, ⟨28, _⟩ => ⟨S16x4096x1, .f32⟩
  | .hbm, ⟨29, _⟩ => ⟨S16x4096x256, .f32⟩
  | .hbm, ⟨30, _⟩ => ⟨S16x4096x256, .f32⟩
  | .hbm, ⟨31, _⟩ => ⟨S16x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  reducesTo_S16x4096x256_S16x4096_d2 : S16x4096x256.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x256_0_1_2 : S16x4096x1.BroadcastsInDim S16x4096x256 (![0, 1, 2] : Fin 3 → Fin S16x4096x256.rank)
  dot_S256x128_S128x128_S256x128_1_0_0_1_n_n_wf : DotDims.WF S256x128 S128x128 S256x128 [1] [0] [0] [1] [] []
  dot_S16x4096x128_S256x128_S16x4096x256_2_1_01_0_n_n_wf : DotDims.WF S16x4096x128 S256x128 S16x4096x256 [2] [1] [0, 1] [0] [] []
  dot_S16x4096x256_S256x128_S16x4096x128_2_0_01_1_n_n_wf : DotDims.WF S16x4096x256 S256x128 S16x4096x128 [2] [0] [0, 1] [1] [] []

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S16x4096x128_S256x128_S16x4096x256_2_1_01_0_n_n : DotDims S16x4096x128 S256x128 S16x4096x256 where
  lhsContracting := [2]
  rhsContracting := [1]
  lhsNonContracting := [0, 1]
  rhsNonContracting := [0]
  lhsBatch := []
  rhsBatch := []
  wf := dot_S16x4096x128_S256x128_S16x4096x256_2_1_01_0_n_n_wf
def dot_S16x4096x256_S256x128_S16x4096x128_2_0_01_1_n_n : DotDims S16x4096x256 S256x128 S16x4096x128 where
  lhsContracting := [2]
  rhsContracting := [0]
  lhsNonContracting := [0, 1]
  rhsNonContracting := [1]
  lhsBatch := []
  rhsBatch := []
  wf := dot_S16x4096x256_S256x128_S16x4096x128_2_0_01_1_n_n_wf

class Facts : Prop extends Facts₀ where

variable [Facts]
-- ==== Proof.Attend.lean ====
/-
  Attention over a finite memory, on the extended reals: the mathematics of one output entry.

  Fix a row of logits `L : Fin n → EReal` (the scores of one query against the `n` memory slots) and a column of
  values `v : Fin n → EReal`. With `μ = max_k L k` (a fold of `max` from `-∞`), the weights are
  `w k = exp (L k - μ)` and their total is `Z = ∑ k, w k`. The entry can be formed in two orders:

  * normalise AFTER mixing:  `(∑ k, w k * v k) / Z`   — one division per entry;
  * normalise BEFORE mixing: `∑ k, (w k / Z) * v k`   — the softmax probabilities first, then the mix.

  On the reals these agree because multiplication distributes over a finite sum. On the extended reals
  distributivity fails at the infinities, so the law is proved where every logit and every value is a real number:
  then `μ` is real (a maximum of finitely many reals over a nonempty index set), every weight is a positive real,
  `Z` is a positive real — in particular not zero, which is what the division's corner case asks — and both sides
  are the same real number.
-/
import Idealize.ShloMosaic.PureOps.Ideal
import Mathlib.Data.EReal.Basic
import Mathlib.Data.EReal.Operations
import Mathlib.Data.EReal.Inv
import Mathlib.Data.Finset.Fold
import Mathlib.Algebra.BigOperators.Ring.Finset
import Mathlib.Analysis.SpecialFunctions.Exp

noncomputable section

open scoped BigOperators

namespace Cert.Attend

open Idealize.ShloMosaic

/-! ## Real-valued extended reals -/

/-- An extended real that is a real number. -/
def IsReal (x : EReal) : Prop := ∃ r : ℝ, x = (r : EReal)

theorem isReal_coe (r : ℝ) : IsReal (r : EReal) := ⟨r, rfl⟩

theorem isReal_of_ne {x : EReal} (ht : x ≠ ⊤) (hb : x ≠ ⊥) : IsReal x := ⟨x.toReal, (EReal.coe_toReal ht hb).symm⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion of a finite real sum is the sum of the coercions. -/
theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A dot product of two real-valued families is real. -/
theorem isReal_dot {ι : Type*} [Fintype ι] (f g : ι → EReal) (hf : ∀ i, IsReal (f i)) (hg : ∀ i, IsReal (g i)) :
    IsReal (∑ i, f i * g i) :=
  isReal_sum _ _ fun i _ => (hf i).mul (hg i)

/-! ## One entry of attention, in the two orders -/

variable {n : Nat}

/-- The float pattern of `-∞` (sign 1, exponent all ones, significand 0) denotes the bottom extended real: a maximum
    started from it starts from `⊥`. -/
theorem ofBits_neg_inf : Ideal.ofBits .f32 0xFF800000#32 = (⊥ : EReal) := by
  simp [Ideal.ofBits, Ideal.ieee]

/-- The largest logit: the fold of `max` from `-∞` over the memory slots. -/
def rowMax (L : Fin n → EReal) : EReal := (Finset.univ : Finset (Fin n)).fold max ⊥ L

/-- The unnormalised weight of slot `k`: `exp (L k - max L)`. -/
def weight (L : Fin n → EReal) (k : Fin n) : EReal := Ideal.exp (L k - rowMax L)

/-- The normaliser: the sum of the weights. -/
def total (L : Fin n → EReal) : EReal := ∑ k, weight L k

/-- Mix the values with the unnormalised weights, then divide once by the normaliser. -/
def mixThenNormalise (L v : Fin n → EReal) : EReal := Ideal.div (∑ k, weight L k * v k) (total L)

/-- Divide each weight by the normaliser (the softmax probabilities), then mix the values. -/
def normaliseThenMix (L v : Fin n → EReal) : EReal := ∑ k, Ideal.div (weight L k) (total L) * v k

/-- Over a nonempty memory the largest of real logits is real. -/
theorem rowMax_isReal (hn : 0 < n) (L : Fin n → EReal) (hL : ∀ k, IsReal (L k)) : IsReal (rowMax L) := by
  refine isReal_of_ne (ne_of_lt ?_) (ne_of_gt ?_)
  · refine (Finset.fold_max_lt _).2 ⟨bot_lt_top, fun k _ => ?_⟩
    obtain ⟨r, hr⟩ := hL k; rw [hr]; exact EReal.coe_lt_top r
  · obtain ⟨r, hr⟩ := hL ⟨0, hn⟩
    refine lt_of_lt_of_le (EReal.bot_lt_coe r) ?_
    rw [← hr]
    exact (Finset.le_fold_max _).2 (Or.inr ⟨⟨0, hn⟩, Finset.mem_univ _, le_refl _⟩)

/-- THE LAW: where every logit and every value is real, normalising before the mix and after it give the same entry. -/
theorem normaliseThenMix_eq (hn : 0 < n) (L v : Fin n → EReal) (hL : ∀ k, IsReal (L k)) (hv : ∀ k, IsReal (v k)) :
    normaliseThenMix L v = mixThenNormalise L v := by
  obtain ⟨μ, hμ⟩ := rowMax_isReal hn L hL
  choose l hl using hL
  choose u hu using hv
  -- every weight is the positive real `exp (l k - μ)`
  have hw : ∀ k, weight L k = ((Real.exp (l k - μ) : ℝ) : EReal) := fun k => by
    unfold weight; rw [hμ, hl k, ← EReal.coe_sub]; rfl
  -- so the normaliser is a positive real
  have hZ : total L = ((∑ k, Real.exp (l k - μ) : ℝ) : EReal) := by
    unfold total; rw [coe_sum]; exact Finset.sum_congr rfl fun k _ => hw k
  have hpos : (0 : ℝ) < ∑ k, Real.exp (l k - μ) :=
    Finset.sum_pos (fun k _ => Real.exp_pos _) ⟨⟨0, hn⟩, Finset.mem_univ _⟩
  have hne : (∑ k, Real.exp (l k - μ) : ℝ) ≠ 0 := ne_of_gt hpos
  unfold normaliseThenMix mixThenNormalise
  rw [hZ, Ideal.div_coe hne]
  have e1 : ∀ k, Ideal.div (weight L k) ((∑ k, Real.exp (l k - μ) : ℝ) : EReal) * v k
      = ((Real.exp (l k - μ) * (1 / ∑ k, Real.exp (l k - μ)) * u k : ℝ) : EReal) := fun k => by
    rw [Ideal.div_coe hne, hw k, hu k, ← EReal.coe_mul, ← EReal.coe_mul]
  have e2 : ∀ k, weight L k * v k = ((Real.exp (l k - μ) * u k : ℝ) : EReal) := fun k => by
    rw [hw k, hu k, ← EReal.coe_mul]
  rw [Finset.sum_congr rfl fun k _ => e1 k, Finset.sum_congr rfl fun k _ => e2 k, ← coe_sum, ← coe_sum, ← EReal.coe_mul]
  congr 1
  rw [Finset.sum_mul]
  exact Finset.sum_congr rfl fun k _ => by ring

end Cert.Attend

end
-- ==== Proof.AttendArray.lean ====
/-
  The whole result as one function of the arrays.

  `x : [16, 4096, 128]` holds 16 batch rows of 4096 queries of 128 features; `K, W : [256, 128]` are the keys and the
  values of the 256 memory slots. Entry `(b, s, e)` of the result attends query `(b, s)` over the memory: its logits
  are `L k = ∑ e', x[b, s, e'] · K[k, e']`, and the entry is the values' column `e` mixed with the softmax weights
  of `L` — here in the order that normalises after the mix (`Attend.mixThenNormalise`).
-/
import proofs.«415137_j32023276159359_3_alg».proof.Proof.Attend
import Idealize.ShloMosaic.Lib.ValueIdx

noncomputable section

open scoped BigOperators

namespace Cert.Attend

open Idealize.ShloMosaic Idealize.ShloMosaic.ValueIdx

/-- The logits of query `(b, s)` against the keys. -/
def queryLogits (x : (⟨3, ![16, 4096, 128]⟩ : Shape).Idx → EReal) (K : (⟨2, ![256, 128]⟩ : Shape).Idx → EReal)
    (b : Fin 16) (s : Fin 4096) (k : Fin 256) : EReal :=
  ∑ e : Fin 128, x (ix3 b s e) * K (ix2 k e)

/-- The attended array, normalising after the mix. -/
def attend (x : (⟨3, ![16, 4096, 128]⟩ : Shape).Idx → EReal) (K W : (⟨2, ![256, 128]⟩ : Shape).Idx → EReal) :
    (⟨3, ![16, 4096, 128]⟩ : Shape).Idx → EReal :=
  fun i => mixThenNormalise (queryLogits x K (i 0) (i 1)) (fun k => W (ix2 k (i 2)))

end Cert.Attend

end
-- ==== Proof.FiniteInputs.lean ====
/-
  Finite inputs are real numbers.

  The precondition `finite_inputs` is the conjunction, over the six input arrays, of "every entry x has |x| < +∞".
  On the extended reals |x| is `max x (-x)` and the f32 pattern 0x7F800000 denotes `⊤`. The strict bound
  `max x (-x) < ⊤` excludes both infinities: at `x = ⊤` the maximum is `⊤` itself, and at `x = ⊥` its second
  argument `-x` is `⊤`. An extended real that is neither infinity is a real number.

  Each "for every entry" is printed as a reduction by `and`, started at 1, of the array of comparisons over all of
  its axes, and the six results are joined by `and`. The conjunction being 1 makes each of the six reductions 1, and
  a reduction by `and` that came out 1 met a 1 at every index.
-/
import proofs.«415137_j32023276159359_3_alg».proof.Pre_finite_inputs
import proofs.«415137_j32023276159359_3_alg».proof.Proof.Gen.Pre_finite_inputs
import proofs.«415137_j32023276159359_3_alg».proof.Proof.Attend
import Idealize.ShloMosaic.Lib.ReduceAll
import Idealize.ShloMosaic.Lib.ValueIdx
import Idealize.ShloMosaic.PureOps.Ideal
import Idealize.ShloMosaic.PureOps.Ideal.Laws

noncomputable section

namespace Cert.FiniteInputs

open Idealize.ShloMosaic Cert.Pre_finite_inputs Cert.Attend

/-- The shape of rank 0 has exactly one index: there is no coordinate to differ in. -/
instance : Subsingleton S_.Idx := ⟨fun a b => funext fun d => d.elim0⟩

/-- The f32 pattern `0x7F800000` (sign 0, exponent all ones, significand 0) denotes `+∞`. -/
theorem ofBits_inf : Ideal.ofBits .f32 0x7F800000#32 = (⊤ : EReal) := by
  simp [Ideal.ofBits, Ideal.ieee]

/-- An extended real whose absolute value `max x (-x)` lies strictly below `+∞` is a real number:
    `x = ⊥` gives `-x = ⊤` and `x = ⊤` gives `x = ⊤`, either way the maximum is `⊤`. -/
theorem isReal_of_abs_lt_top {x : EReal} (h : max x (-x) < ⊤) : IsReal x := by
  induction x using EReal.rec with
  | bot => simp at h
  | top => simp at h
  | coe r => exact isReal_coe r

/-- One entry: the comparison `|x| < +∞` coming out 1 says that `x` is a real number. -/
theorem isReal_of_cmp {x : Ideal .f32}
    (h : FloatOps.cmpf .olt (FloatOps.hostAbsf x) (FloatOps.ofBits (F := Ideal) .f32 0x7F800000#32) = 1#1) :
    IsReal x := by
  have h' : Ideal.cmp .olt (max (x : EReal) (-(x : EReal))) (Ideal.ofBits .f32 0x7F800000#32) = 1#1 := h
  rw [ofBits_inf] at h'
  by_contra hn
  have hlt : ¬ max (x : EReal) (-(x : EReal)) < ⊤ := fun hlt => hn (isReal_of_abs_lt_top hlt)
  simp [Ideal.cmp, hlt] at h'

/-- One array: `jnp.all(|x| < +∞)` coming out 1 says that every entry of `x` is a real number. The array of
    comparisons is reduced by `and` over all axes into the one-index shape, so the 1 is met at every index. -/
theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1)
    (i : s.Idx) : IsReal (x i) :=
  isReal_of_cmp (Host.reduce_andi_all _ _ hr hu _ e i)

/-- Under `finite_inputs` every entry of every one of the six inputs is a real number. -/
theorem real_of_pre (a0 : FVec Ideal S16x4096x128 .f32) (a1 : FVec Ideal S256x128 .f32) (a2 : FVec Ideal S128x128 .f32)
    (a3 : FVec Ideal S128 .f32) (a4 : FVec Ideal S128x128 .f32) (a5 : FVec Ideal S128 .f32)
    (h : Cert.Pre_finite_inputs.fn (F := Ideal) a0 a1 a2 a3 a4 a5 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) := by
  -- the claim at the result's one index, with the printed chain of operations in view
  have e := congrFun h ValueIdx.ix0
  dsimp only [fn, fn_part1] at e
  -- the result is ((((r0 ∧ r1) ∧ r2) ∧ r3) ∧ r4) ∧ r5, one reduction per input: peel it from the outside
  obtain ⟨e01234, e5⟩ := IntOp.andi_eq_one.1 e
  obtain ⟨e0123, e4⟩ := IntOp.andi_eq_one.1 e01234
  obtain ⟨e012, e3⟩ := IntOp.andi_eq_one.1 e0123
  obtain ⟨e01, e2⟩ := IntOp.andi_eq_one.1 e012
  obtain ⟨e0, e1⟩ := IntOp.andi_eq_one.1 e01
  exact ⟨isReal_of_all a0 _ _ _ e0, isReal_of_all a1 _ _ _ e1, isReal_of_all a2 _ _ _ e2,
    isReal_of_all a3 _ _ _ e3, isReal_of_all a4 _ _ _ e4, isReal_of_all a5 _ _ _ e5⟩

end Cert.FiniteInputs

end
-- ==== Proof.LibColumn.lean ====
/-
  Two layout facts about a column kept as a trailing unit axis (`keepdims`): a vector `[a]` cast to a
  column `[a, 1]` reads, at `(i, u)`, the vector at `i`; a column `[a, 1]` broadcast along its unit axis to
  `[a, b]` reads, at `(i, j)`, the column at `(i, 0)`.  Together: a per-row quantity spread over the row.
-/
import Idealize.ShloMosaic.Lib.Pipeline.Value
import Idealize.ShloMosaic.Lib.ValueIdx

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.Column
-- ==== Proof.EntryOfBlock.lean ====
/-
  One entry of the kernel's output block, as mathematics.

  The body works on one batch row: a block `x : [1, 4096, 128]` of queries, the keys `K : [256, 128]` and the
  values `W : [256, 128]`. For query `s` and feature `e` it forms the logits `L k = ∑ e', x[0, s, e'] · K[k, e']`
  against the 256 memory slots (a product that contracts the last axis of both operands), takes their maximum,
  exponentiates the differences, sums them, mixes the values with the unnormalised weights (a second product,
  contracting the memory axis) and divides once by the sum. Read at the extended reals, where a change of float
  format is the identity, entry `(0, s, e)` of the result is `Attend.mixThenNormalise L (fun k => W[k, e])`.
-/
import proofs.«415137_j32023276159359_3_alg».proof.Proof.Gen.KernelIdeal.Skeleton
import proofs.«415137_j32023276159359_3_alg».proof.Proof.Attend
import proofs.«415137_j32023276159359_3_alg».proof.Proof.LibColumn
import Idealize.ShloMosaic.Lib.Pipeline.Value
import Idealize.ShloMosaic.Lib.ValueIdx
import Idealize.ShloMosaic.PureOps.Ideal.Laws

noncomputable section

open scoped BigOperators

namespace Cert.KernelIdeal.Entry

open Cert.KernelIdeal Cert.KernelIdeal.Gen Idealize.ShloMosaic Idealize.ShloMosaic.ValueIdx Cert.Attend Cert.Column

/-! ## The two matrix products at an index -/

theorem lhs_dQK_0 (i : S4096x256.Idx) (q : dot_S4096x128_S256x128_S4096x256_1_1_0_0_n_n.contr.Idx) :
    (dot_S4096x128_S256x128_S4096x256_1_1_0_0_n_n.lhsIdx i q 0).val = (i 0).val := by
  unfold DotDims.lhsIdx
  rw [dif_neg (show ¬(0 : Fin S4096x128.rank) ∈ dot_S4096x128_S256x128_S4096x256_1_1_0_0_n_n.lhsBatch by decide), dif_pos (show (0 : Fin S4096x128.rank) ∈ dot_S4096x128_S256x128_S4096x256_1_1_0_0_n_n.lhsNonContracting by decide)]
  rfl
theorem lhs_dQK_1 (i : S4096x256.Idx) (q : dot_S4096x128_S256x128_S4096x256_1_1_0_0_n_n.contr.Idx) :
    (dot_S4096x128_S256x128_S4096x256_1_1_0_0_n_n.lhsIdx i q 1).val = (q ⟨0, by decide⟩).val :=
  dot_S4096x128_S256x128_S4096x256_1_1_0_0_n_n.lhsIdx_val_of_single rfl i q
theorem rhs_dQK_0 (i : S4096x256.Idx) (q : dot_S4096x128_S256x128_S4096x256_1_1_0_0_n_n.contr.Idx) :
    (dot_S4096x128_S256x128_S4096x256_1_1_0_0_n_n.rhsIdx i q 0).val = (i 1).val := by
  unfold DotDims.rhsIdx
  rw [dif_neg (show ¬(0 : Fin S256x128.rank) ∈ dot_S4096x128_S256x128_S4096x256_1_1_0_0_n_n.rhsBatch by decide), dif_pos (show (0 : Fin S256x128.rank) ∈ dot_S4096x128_S256x128_S4096x256_1_1_0_0_n_n.rhsNonContracting by decide)]
  rfl
theorem rhs_dQK_1 (i : S4096x256.Idx) (q : dot_S4096x128_S256x128_S4096x256_1_1_0_0_n_n.contr.Idx) :
    (dot_S4096x128_S256x128_S4096x256_1_1_0_0_n_n.rhsIdx i q 1).val = (q ⟨0, by decide⟩).val :=
  dot_S4096x128_S256x128_S4096x256_1_1_0_0_n_n.rhsIdx_val_of_single rfl i q

/-- Queries against keys: entry `(s, k)` is the sum over the 128 features of query `s` times key `k`. -/
theorem logits_apply (a : FVec Ideal S4096x128 .bf16) (b : FVec Ideal S256x128 .bf16) (s : Fin 4096) (k : Fin 256) :
    matmul dot_S4096x128_S256x128_S4096x256_1_1_0_0_n_n none a b (constant S4096x256 .f32 0x00000000#32) (ix2 s k)
      = ∑ e : Fin 128, a (ix2 s e) * b (ix2 k e) := by
  simp only [matmul]
  rw [Ideal.matmul_constant_zero_apply, ← Equiv.sum_comp (contrEquiv1 dot_S4096x128_S256x128_S4096x256_1_1_0_0_n_n 128 rfl rfl).symm]
  refine Finset.sum_congr rfl fun e _ => ?_
  have hk := contrEquiv1_symm_val dot_S4096x128_S256x128_S4096x256_1_1_0_0_n_n 128 rfl rfl e
  have el : dot_S4096x128_S256x128_S4096x256_1_1_0_0_n_n.lhsIdx (ix2 s k) ((contrEquiv1 dot_S4096x128_S256x128_S4096x256_1_1_0_0_n_n 128 rfl rfl).symm e) = ix2 s e := funext fun ax => Fin.ext (by
    match ax with
    | ⟨0, _⟩ => exact lhs_dQK_0 _ _
    | ⟨1, _⟩ => exact (lhs_dQK_1 _ _).trans hk)
  have er : dot_S4096x128_S256x128_S4096x256_1_1_0_0_n_n.rhsIdx (ix2 s k) ((contrEquiv1 dot_S4096x128_S256x128_S4096x256_1_1_0_0_n_n 128 rfl rfl).symm e) = ix2 k e := funext fun ax => Fin.ext (by
    match ax with
    | ⟨0, _⟩ => exact rhs_dQK_0 _ _
    | ⟨1, _⟩ => exact (rhs_dQK_1 _ _).trans hk)
  rw [el, er]

theorem lhs_dPV_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem lhs_dPV_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem rhs_dPV_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem rhs_dPV_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- Weights against values: entry `(s, e)` is the sum over the 256 memory slots of weight `(s, k)` times value `(k, e)`. -/
theorem mix_apply (p : FVec Ideal S4096x256 .bf16) (w : FVec Ideal S256x128 .bf16) (s : Fin 4096) (e : Fin 128) :
    matmul dot_S4096x256_S256x128_S4096x128_1_0_0_1_n_n none p w (constant S4096x128 .f32 0x00000000#32) (ix2 s e)
      = ∑ k : Fin 256, p (ix2 s k) * w (ix2 k e) := by
  simp only [matmul]
  rw [Ideal.matmul_constant_zero_apply, ← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 s e) ((contrEquiv1 dot_S4096x256_S256x128_S4096x128_1_0_0_1_n_n 256 rfl rfl).symm k) = ix2 s k := funext fun ax => Fin.ext (by
    match ax with
    | ⟨0, _⟩ => exact lhs_dPV_0 _ _
    | ⟨1, _⟩ => exact (lhs_dPV_1 _ _).trans hk)
  have er : dot_S4096x256_S256x128_S4096x128_1_0_0_1_n_n.rhsIdx (ix2 s e) ((contrEquiv1 dot_S4096x256_S256x128_S4096x128_1_0_0_1_n_n 256 rfl rfl).symm k) = ix2 k e := funext fun ax => Fin.ext (by
    match ax with
    | ⟨0, _⟩ => exact (rhs_dPV_0 _ _).trans hk
    | ⟨1, _⟩ => exact rhs_dPV_1 _ _)
  rw [el, er]

/-! ## Layout and the two row reductions at an index -/

/-- The block's leading unit axis dropped: entry `(s, e)` of the cast is entry `(0, s, e)` of the block. -/
theorem dropLead_apply {α : Type} (x : S1x4096x128.Idx → α) (h : S1x4096x128.ShapeCasts S4096x128) (s : Fin 4096) (e : Fin 128) :
    shapeCast S4096x128 x h (ix2 s e) = x (ix3 (0 : Fin 1) s e) :=
  shapeCast_apply x h _ _ (by
    rw [Shape.rowMajor_val_two, Shape.rowMajor_val_three]
    show ((0 : Nat) * 4096 + s.val) * 128 + e.val = s.val * 128 + e.val
    omega)

/-- The leading unit axis put back: entry `(0, s, e)` of the cast is entry `(s, e)`. -/
theorem addLead_apply {α : Type} (y : S4096x128.Idx → α) (h : S4096x128.ShapeCasts S1x4096x128) (s : Fin 4096) (e : Fin 128) :
    shapeCast S1x4096x128 y h (ix3 (0 : Fin 1) s e) = y (ix2 s e) :=
  shapeCast_apply y h _ _ (by
    rw [Shape.rowMajor_val_two, Shape.rowMajor_val_three]
    show s.val * 128 + e.val = ((0 : Nat) * 4096 + s.val) * 128 + e.val
    omega)

/-- A row's maximum over the 256 memory slots, from `-∞`. -/
theorem rowMax_apply (L : FVec Ideal S4096x256 .f32) (h : S4096x256.Reduces [1] S4096) (hφ : FTy.f32 = FTy.f32 ∨ FTy.f32 = FTy.bf16)
    (hacc : (0xFF800000#32 : BitVec FTy.f32.bits) = 0xFF800000#32) (s : Fin 4096) :
    multiReduction .maximumf [1] S4096 L 0xFF800000#32 h hφ hacc (ix1 s) = rowMax (fun k : Fin 256 => L (ix2 s k)) := by
  refine (Ideal.multiReduction_maximumf_single L 0xFF800000#32 h hφ hacc (ix1 s)).trans ?_
  unfold rowMax
  show (Finset.univ : Finset (Fin 256)).fold max (Ideal.ofBits .f32 0xFF800000#32) (L ∘ h.lift (ix1 s)) = _
  rw [ofBits_neg_inf]
  congr 1
  funext k
  exact congrArg L (funext fun ax => Fin.ext (by match ax with | ⟨0, _⟩ => rfl | ⟨1, _⟩ => rfl))

/-- A row's sum over the 256 memory slots. -/
theorem rowSum_apply (P : FVec Ideal S4096x256 .f32) (h : S4096x256.Reduces [1] S4096) (hφ : FTy.f32 = FTy.f32 ∨ FTy.f32 = FTy.bf16)
    (hacc : (0x00000000#32 : BitVec FTy.f32.bits) = 0x00000000#32) (s : Fin 4096) :
    multiReduction .add [1] S4096 P 0x00000000#32 h hφ hacc (ix1 s) = ∑ k : Fin 256, P (ix2 s k) := by
  refine (Ideal.multiReduction_add_single P 0x00000000#32 h hφ hacc (ix1 s)).trans ?_
  show ∑ k : Fin 256, P (h.lift (ix1 s) k) = _
  refine Finset.sum_congr rfl fun k _ => ?_
  exact congrArg P (funext fun ax => Fin.ext (by match ax with | ⟨0, _⟩ => rfl | ⟨1, _⟩ => rfl))

theorem exp_apply {s : Shape} (a : FVec Ideal s .f32) (i : s.Idx) : exp a i = Ideal.exp (a i) := rfl

/-! ## The body's result at an index -/

/-- The logits of query `s` of a block against the keys. -/
def logits (x : Vec Ideal S1x4096x128 .f32) (K : Vec Ideal S256x128 .f32) (s : Fin 4096) (k : Fin 256) : EReal :=
  ∑ e : Fin 128, x (ix3 (0 : Fin 1) s e) * K (ix2 k e)

/-- ENTRY `(0, s, e)` OF THE BODY'S RESULT: the values' column `e` mixed with the weights of query `s`, normalised after
    the mix. -/
theorem pay_apply (x : Vec Ideal S1x4096x128 .f32) (K W : Vec Ideal S256x128 .f32) (s : Fin 4096) (e : Fin 128) :
    k0_pay1 (F := Ideal) x K W (ix3 (0 : Fin 1) s e) = mixThenNormalise (logits x K s) (fun k => W (ix2 k e)) := by
  unfold k0_pay1
  simp only [addLead_apply, divf_apply, mix_apply, truncf_apply, exp_apply, subf_apply, logits_apply, dropLead_apply,
    shapeCast_self, broadcastTo_a1_ab_apply, shapeCast_a_a1_apply]
  rw [rowSum_apply]
  simp only [truncf_apply, exp_apply, subf_apply, logits_apply, dropLead_apply, broadcastTo_a1_ab_apply, shapeCast_a_a1_apply]
  rw [rowMax_apply]
  simp only [truncf_apply, logits_apply, dropLead_apply]
  rfl

end Cert.KernelIdeal.Entry

end
-- ==== Proof.ResultArray.lean ====
/-
  The kernel's result array after the run is `Attend.attend` of the queries and of the keys and values as the
  region finds them.

  The grid has 16 points, one per batch row: point `t` stages batch row `t` of the queries (a `[1, 4096, 128]`
  block), the whole key and value arrays, and writes back batch row `t` of the result. What the body leaves at
  `(0, s, e)` of its block is entry `(t, s, e)` of `attend` (EntryOfBlock's `pay_apply`, with each staged block read
  back as the rows of its array), the 16 blocks tile the result, so the array ends holding `attend` everywhere.
-/
import proofs.«415137_j32023276159359_3_alg».proof.Proof.Gen.KernelIdeal.Value
import proofs.«415137_j32023276159359_3_alg».proof.Proof.EntryOfBlock
import proofs.«415137_j32023276159359_3_alg».proof.Proof.AttendArray
import Idealize.ShloMosaic.Lib.Pipeline.Value

noncomputable section

open scoped BigOperators

namespace Cert.KernelIdeal.Result

open Cert.KernelIdeal Cert.KernelIdeal.Gen Cert.KernelIdeal.Value Cert.KernelIdeal.Entry
open Idealize.ShloMosaic Idealize.ShloMosaic.TcCoe Idealize.SL.Sem Idealize.ShloMosaic.ValueIdx Cert.Attend
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the query window moves with the result window along the batch axis and both
    sit at block 0 of the other axes; the key and value windows never move. -/
theorem idx_facts : ∀ t : Fin cfg0.N, win0_0.index t (0 : Fin 3) = win0_3.index t (0 : Fin 3)
    ∧ win0_0.index t (1 : Fin 3) = 0 ∧ win0_0.index t (2 : Fin 3) = 0
    ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 15 :=
  (by decide +kernel : ∀ t : Fin grid0.N, _)

/-- Every batch row is some point's block. -/
theorem idx_onto : ∀ q : Fin 16, ∃ t : Fin cfg0.N, win0_3.index t (0 : Fin 3) = q.val :=
  (by decide +kernel : ∀ q : Fin 16, ∃ t : Fin grid0.N, win0_3.index t (0 : Fin 3) = q.val)

/-- WHAT THE BODY LEAVES at entry `y` of point `t`'s block is `attend` at the array index the block puts `y` at. -/
theorem block_entry (c : Dev nD) (t : Fin cfg0.N) (y : S1x4096x128.Idx) :
    k0_pay1 (F := Ideal) (iblk m c 0 t) (iblk m c 1 t) (iblk m c 2 t) y
      = attend (V m c main_arg0) (V m c main_v4) (V m c main_v9) (((cfg0.win 3).blk t).view.emb y) := by
  obtain ⟨u, s, e, rfl⟩ : ∃ (u : Fin 1) (s : Fin 4096) (e : Fin 128), y = ix3 u s e := ⟨y 0, y 1, y 2, eq_ix3 y⟩
  obtain rfl : u = 0 := Subsingleton.elim _ _
  refine (pay_apply _ _ _ s e).trans ?_
  obtain ⟨f0, f1, f2, f3, f4, f5, f6, f7, f8, f9⟩ := idx_facts t
  unfold attend
  congr 1
  · funext k
    unfold logits queryLogits
    refine Finset.sum_congr rfl fun e' _ => ?_
    congr 1
    · show V m c main_arg0 (((cfg0.win 0).blk t).view.emb (ix3 (0 : Fin 1) s e')) = V m c main_arg0 _
      refine congrArg _ (funext fun a => Fin.ext ?_)
      match a with
      | ⟨0, _⟩ => show win0_0.index t (0 : Fin 3) * 1 + 1 * 0 = win0_3.index t (0 : Fin 3) * 1 + 1 * 0; omega
      | ⟨1, _⟩ => show win0_0.index t (1 : Fin 3) * 4096 + 1 * s.val = win0_3.index t (1 : Fin 3) * 4096 + 1 * s.val; omega
      | ⟨2, _⟩ => show win0_0.index t (2 : Fin 3) * 128 + 1 * e'.val = e'.val; omega
    · show V m c main_v4 (((cfg0.win 1).blk t).view.emb (ix2 k e')) = V m c main_v4 _
      refine congrArg _ (funext fun a => Fin.ext ?_)
      match a with
      | ⟨0, _⟩ => show win0_1.index t (0 : Fin 2) * 256 + 1 * k.val = k.val; omega
      | ⟨1, _⟩ => show win0_1.index t (1 : Fin 2) * 128 + 1 * e'.val = e'.val; omega
  · funext k
    show V m c main_v9 (((cfg0.win 2).blk t).view.emb (ix2 k e)) = V m c main_v9 _
    refine congrArg _ (funext fun a => Fin.ext ?_)
    match a with
    | ⟨0, _⟩ => show win0_2.index t (0 : Fin 2) * 256 + 1 * k.val = k.val; omega
    | ⟨1, _⟩ => show win0_2.index t (1 : Fin 2) * 128 + 1 * e.val = win0_3.index t (2 : Fin 3) * 128 + 1 * e.val; omega

/-- WHAT POINT `t` WRITES BACK is block `t` of `attend`. -/
theorem flushed_eq (c : Dev nD) (t : Fin cfg0.N) :
    (dats m 0 c).flushed 3 t
      = ((cfg0.win 3).blk t).view.read (Elt Ideal) (attend (V m c main_arg0) (V m c main_v4) (V m c main_v9)) := by
  rw [Value.flushed3]
  unfold out0_3
  rw [View.canon_unit_zero hz3]
  simp only [View.ld_unit_zero (S := S1x4096x128) hz3, View.ld_unit_zero (S := S256x128) hz2]
  funext j
  exact block_entry m c t j

/-- An index of the array is in point `t`'s block iff each coordinate is in the block's range on its axis. -/
theorem mem_blk (t : Fin cfg0.N) (i : S16x4096x128.Idx) :
    i ∈ ((cfg0.win 3).blk t).view.set ↔ ∀ a : Fin 3, win0_3.index t a * S1x4096x128.size a ≤ (i a).val ∧ (i a).val < win0_3.index t a * S1x4096x128.size a + S1x4096x128.size a := by
  show i ∈ ((View.whole main_v10).slice (win0_3.rect t)).set ↔ _
  rw [View.set_slice_whole, Rect.mem_set_unit]
  exact Iff.rfl

/-- The 16 blocks cover the result: index `(b, s, e)` is in the block of the point at batch row `b`. -/
theorem covered (i : S16x4096x128.Idx) : ∃ t : Fin cfg0.N, (cfg0.win 3).flush t = true ∧ i ∈ ((cfg0.win 3).blk t).view.set := by
  obtain ⟨t, ht⟩ := idx_onto (i 0)
  obtain ⟨f0, f1, f2, f3, f4, f5, f6, f7, f8, f9⟩ := idx_facts t
  refine ⟨t, flush0_3 t, ?_⟩
  rw [mem_blk]
  have h1 : (i 1).val < 4096 := (i 1).isLt
  have h2 : (i 2).val < 128 := (i 2).isLt
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 128 ≤ (i 2).val ∧ (i 2).val < win0_3.index t (2 : Fin 3) * 128 + 128; omega

/-- THE ARRAY after the run. -/
theorem final (c : Dev nD) :
    (dats m 0 c).arrAt 3 cfg0.N = attend (V m c main_arg0) (V m c main_v4) (V m c main_v9) :=
  (dats m 0 c).arrAt_eq_of_cover 3 (attend (V m c main_arg0) (V m c main_v4) (V m c main_v9))
    (fun t _ => flushed_eq m c t) covered

end Cert.KernelIdeal.Result

end
-- ==== Proof.ReferenceRead.lean ====
/-
  The reference's result, read at an index, is attention normalised BEFORE the mix.

  The reference forms the keys and values on the host, the logits `L` of every query by one `dot_general`, their
  maximum along the memory axis (a reduce from `-∞`, then once more `max` with `-∞`, which changes nothing), the
  weights `exp (L - max)`, their sums, the quotient of each weight by its row's sum — the softmax — and a last
  `dot_general` of the softmax against the values. At `(b, s, e)` that is
  `Attend.normaliseThenMix (queryLogits x K b s) (fun k => W[k, e])`, where `K` and `W` are the reference's own key
  and value stages.
-/
import proofs.«415137_j32023276159359_3_alg».proof.Proof.Gen.ReferenceIdeal.Read
import proofs.«415137_j32023276159359_3_alg».proof.Proof.AttendArray
import Idealize.ShloMosaic.Lib.ValueIdx
import Idealize.ShloMosaic.PureOps.Ideal.Laws
import Idealize.ShloMosaic.PureOps.Reduce

noncomputable section

open scoped BigOperators

namespace Cert.ReferenceIdeal.Attended

open Cert.ReferenceIdeal Cert.ReferenceIdeal.Gen Cert.ReferenceIdeal.Read
open Idealize.ShloMosaic Idealize.ShloMosaic.ValueIdx Cert.Attend

variable (x0 : (⟨S16x4096x128, .f32⟩ : BufTy).Contents (Elt Ideal)) (x1 : (⟨S256x128, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The logits stage at `(b, s, k)`: query `(b, s)` against key `k`. -/
theorem logits_at (b : Fin 16) (s : Fin 4096) (k : Fin 256) :
    val_main_v10 (F := Ideal) x0 x1 x2 x3 (ix3 b s k) = queryLogits x0 (val_main_v4 (F := Ideal) x1 x2 x3) b s k := by
  rw [val_main_v10_apply]
  unfold queryLogits
  refine Finset.sum_congr rfl fun e _ => ?_
  have el : lidx_main_v10 (ix3 b s k) e = ix3 b s e :=
    funext fun a => Fin.ext (by match a with | ⟨0, _⟩ => rfl | ⟨1, _⟩ => rfl | ⟨2, _⟩ => rfl)
  have er : ridx_main_v10 (ix3 b s k) e = ix2 k e :=
    funext fun a => Fin.ext (by match a with | ⟨0, _⟩ => rfl | ⟨1, _⟩ => rfl)
  rw [el, er]

/-- The row maximum stage at `(b, s)`: the largest logit of query `(b, s)`. -/
theorem max_at (b : Fin 16) (s : Fin 4096) :
    val_main_v13 (F := Ideal) x0 x1 x2 x3 (ix2 b s) = rowMax (queryLogits x0 (val_main_v4 (F := Ideal) x1 x2 x3) b s) := by
  rw [val_main_v13_apply, val_main_v12_apply, val_main_cst_0_apply]
  unfold val_main_v11
  rw [Host.reduce_eq_fold_single FloatOps.maximumf _ _ reducesTo_S16x4096x256_S16x4096_d2 (by decide) h_S_ (ix2 b s)]
  show max (Ideal.ofBits .f32 0xFF800000#32)
      ((Finset.univ : Finset (Fin 256)).fold max (Ideal.ofBits .f32 0xFF800000#32) _) = _
  rw [ofBits_neg_inf, bot_sup_eq]
  unfold rowMax
  congr 1
  funext k
  show val_main_v10 (F := Ideal) x0 x1 x2 x3 _ = _
  rw [← logits_at x0 x1 x2 x3 b s k]
  exact congrArg _ (funext fun a => Fin.ext (by match a with | ⟨0, _⟩ => rfl | ⟨1, _⟩ => rfl | ⟨2, _⟩ => rfl))

/-- The weight stage at `(b, s, k)`. -/
theorem weight_at (b : Fin 16) (s : Fin 4096) (k : Fin 256) :
    val_main_v17 (F := Ideal) x0 x1 x2 x3 (ix3 b s k) = weight (queryLogits x0 (val_main_v4 (F := Ideal) x1 x2 x3) b s) k := by
  rw [val_main_v17_apply, val_main_v16_apply, val_main_v15_apply, val_main_v14_apply, logits_at]
  have ei : idx_main_v14 (idx_main_v15 (ix3 b s k)) = ix2 b s :=
    funext fun a => Fin.ext (by match a with | ⟨0, _⟩ => rfl | ⟨1, _⟩ => rfl)
  rw [ei, max_at]
  rfl

/-- The normaliser stage at `(b, s)`: the sum of the weights of query `(b, s)`. -/
theorem total_at (b : Fin 16) (s : Fin 4096) :
    val_main_v18 (F := Ideal) x0 x1 x2 x3 (ix2 b s) = total (queryLogits x0 (val_main_v4 (F := Ideal) x1 x2 x3) b s) := by
  rw [val_main_v18_apply, val_main_cst_1_apply]
  show Ideal.ofBits .f32 0x00000000#32 + _ = _
  rw [Ideal.ofBits_zero_f32, zero_add]
  unfold total
  refine Finset.sum_congr rfl fun k _ => ?_
  rw [← weight_at x0 x1 x2 x3 b s k]
  exact congrArg _ (funext fun a => Fin.ext (by match a with | ⟨0, _⟩ => rfl | ⟨1, _⟩ => rfl | ⟨2, _⟩ => rfl))

/-- THE REFERENCE'S RESULT at `i = (b, s, e)`. -/
theorem result_at (i : S16x4096x128.Idx) :
    val_main_v22 (F := Ideal) x0 x1 x2 x3 x4 x5 i
      = normaliseThenMix (queryLogits x0 (val_main_v4 (F := Ideal) x1 x2 x3) (i 0) (i 1))
          (fun k => val_main_v9 (F := Ideal) x1 x4 x5 (ix2 k (i 2))) := by
  obtain ⟨b, s, e, rfl⟩ : ∃ (b : Fin 16) (s : Fin 4096) (e : Fin 128), i = ix3 b s e := ⟨i 0, i 1, i 2, eq_ix3 i⟩
  rw [val_main_v22_apply]
  unfold normaliseThenMix
  refine Finset.sum_congr rfl fun k _ => ?_
  have el : lidx_main_v22 (ix3 b s e) k = ix3 b s k :=
    funext fun a => Fin.ext (by match a with | ⟨0, _⟩ => rfl | ⟨1, _⟩ => rfl | ⟨2, _⟩ => rfl)
  have er : ridx_main_v22 (ix3 b s e) k = ix2 k e :=
    funext fun a => Fin.ext (by match a with | ⟨0, _⟩ => rfl | ⟨1, _⟩ => rfl)
  rw [el, er, val_main_v21_apply, weight_at, val_main_v20_apply, val_main_v19_apply]
  have ei : idx_main_v19 (idx_main_v20 (ix3 b s k)) = ix2 b s :=
    funext fun a => Fin.ext (by match a with | ⟨0, _⟩ => rfl | ⟨1, _⟩ => rfl)
  rw [ei, total_at]
  rfl

end Cert.ReferenceIdeal.Attended

end
-- ==== Proof.KeysValues.lean ====
/-
  The keys and the values: the same host computation in both programs, and real-valued on real inputs.

  Both programs compute, before anything else, `K = memory · Wkᵀ + bk` and `W = memory · Wvᵀ + bv` by the same five
  host operations each (a transpose, a `dot_general`, two broadcasts of the bias, an add). The kernel's region finds
  them in the arrays its second and third windows stage; they are the reference's key and value stages of the same
  arguments, operation for operation. Entry `(k, e)` of either is a sum of 128 products plus a bias entry, a real
  number when the memory, the weight matrix and the bias are real.
-/
import proofs.«415137_j32023276159359_3_alg».proof.Proof.Gen.KernelIdeal.Frame
import proofs.«415137_j32023276159359_3_alg».proof.Proof.Gen.ReferenceIdeal.Read
import proofs.«415137_j32023276159359_3_alg».proof.Proof.Attend
import Idealize.ShloMosaic.Lib.StableHlo.Run

noncomputable section

open scoped BigOperators

namespace Cert.ReferenceIdeal.KeysValues

open Cert.ReferenceIdeal Cert.ReferenceIdeal.Gen Cert.ReferenceIdeal.Read
open Idealize.ShloMosaic Cert.Attend

variable (x1 : (⟨S256x128, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- Every key entry is real when the memory, the key weights and the key bias are. -/
theorem keys_real (h1 : ∀ i, IsReal (x1 i)) (h2 : ∀ i, IsReal (x2 i)) (h3 : ∀ i, IsReal (x3 i)) (i : S256x128.Idx) :
    IsReal (val_main_v4 (F := Ideal) x1 x2 x3 i) := by
  rw [val_main_v4_apply, val_main_v1_apply, val_main_v3_apply, val_main_v2_apply, Ideal.addf_def]
  refine IsReal.add (isReal_dot _ _ (fun k => h1 _) (fun k => ?_)) (h3 _)
  rw [val_main_v0_apply]
  exact h2 _

/-- Every value entry is real when the memory, the value weights and the value bias are. -/
theorem values_real (h1 : ∀ i, IsReal (x1 i)) (h4 : ∀ i, IsReal (x4 i)) (h5 : ∀ i, IsReal (x5 i)) (i : S256x128.Idx) :
    IsReal (val_main_v9 (F := Ideal) x1 x4 x5 i) := by
  rw [val_main_v9_apply, val_main_v6_apply, val_main_v8_apply, val_main_v7_apply, Ideal.addf_def]
  refine IsReal.add (isReal_dot _ _ (fun k => h1 _) (fun k => ?_)) (h5 _)
  rw [val_main_v5_apply]
  exact h4 _

end Cert.ReferenceIdeal.KeysValues

namespace Cert.KernelIdeal.KeysValues

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The array the kernel's key window stages is the reference's key stage of the kernel's arguments. -/
theorem keys_eq (c : Dev nD) :
    (V m c main_v4 : S256x128.Idx → EReal)
      = Cert.ReferenceIdeal.Read.val_main_v4 (F := Ideal) (m ((c : Thread nD τ).loc main_arg1))
          (m ((c : Thread nD τ).loc main_arg2)) (m ((c : Thread nD τ).loc main_arg3)) := by
  dsimp only [Gen.V, Gen.hostOps0]
  after_results
  rfl

/-- The array the kernel's value window stages is the reference's value stage of the kernel's arguments. -/
theorem values_eq (c : Dev nD) :
    (V m c main_v9 : S256x128.Idx → EReal)
      = Cert.ReferenceIdeal.Read.val_main_v9 (F := Ideal) (m ((c : Thread nD τ).loc main_arg1))
          (m ((c : Thread nD τ).loc main_arg4)) (m ((c : Thread nD τ).loc main_arg5)) := by
  dsimp only [Gen.V, Gen.hostOps0]
  after_results
  rfl

end Cert.KernelIdeal.KeysValues

end
-- ==== Proof.lean ====
/-
  The certificate: a memory-attention kernel against its jnp reference, equal over the extended reals.

  Both programs form keys `K = memory · Wkᵀ + bk` and values `W = memory · Wvᵀ + bv` on the host, then attend every
  query `x[b, s, :]` over the 256 memory slots: logits `L k = x[b, s, :] · K[k, :]`, weights `exp (L k - max L)`,
  normaliser `Z = ∑ k, weight k`. The kernel mixes the values with the unnormalised weights and divides the result
  once by `Z`; the reference divides each weight by `Z` (the softmax) and then mixes. The two orders agree where
  everything is a real number (Attend.lean's law: distributivity, which fails at the infinities), and under the
  precondition every input is real (FiniteInputs.lean), hence so are the keys, the values and the logits
  (KeysValues.lean).

  The kernel's array after its run is `Attend.attend` of its arguments (ResultArray.lean, over EntryOfBlock.lean's
  reading of one block entry); the reference's result at an index is the softmax-then-mix form (ReferenceRead.lean);
  the keys and values the kernel's windows stage are the reference's own stages of the same arguments
  (KeysValues.lean). The three frames are the generated ones; the idealization rewrote nothing, so `preserves` is
  trivially true.
-/
import proofs.«415137_j32023276159359_3_alg».proof.Defs
import proofs.«415137_j32023276159359_3_alg».proof.Proof.Gen.Kernel
import proofs.«415137_j32023276159359_3_alg».proof.Proof.Gen.Kernel.Skeleton
import proofs.«415137_j32023276159359_3_alg».proof.Proof.Gen.Kernel.Launch
import proofs.«415137_j32023276159359_3_alg».proof.Proof.Gen.Kernel.Points
import proofs.«415137_j32023276159359_3_alg».proof.Proof.Gen.Kernel.Frame
import proofs.«415137_j32023276159359_3_alg».proof.Proof.Gen.KernelIdeal
import proofs.«415137_j32023276159359_3_alg».proof.Proof.Gen.KernelIdeal.Skeleton
import proofs.«415137_j32023276159359_3_alg».proof.Proof.Gen.KernelIdeal.Launch
import proofs.«415137_j32023276159359_3_alg».proof.Proof.Gen.KernelIdeal.Points
import proofs.«415137_j32023276159359_3_alg».proof.Proof.Gen.KernelIdeal.Frame
import proofs.«415137_j32023276159359_3_alg».proof.Proof.Gen.ReferenceIdeal
import proofs.«415137_j32023276159359_3_alg».proof.Proof.Gen.Pre_finite_inputs
import proofs.«415137_j32023276159359_3_alg».proof.Proof.Gen.KernelIdeal.Value
import proofs.«415137_j32023276159359_3_alg».proof.Proof.Gen.ReferenceIdeal.Run
import proofs.«415137_j32023276159359_3_alg».proof.Proof.Gen.ReferenceIdeal.Read
import proofs.«415137_j32023276159359_3_alg».proof.Proof.Attend
import proofs.«415137_j32023276159359_3_alg».proof.Proof.AttendArray
import proofs.«415137_j32023276159359_3_alg».proof.Proof.FiniteInputs
import proofs.«415137_j32023276159359_3_alg».proof.Proof.ResultArray
import proofs.«415137_j32023276159359_3_alg».proof.Proof.ReferenceRead
import proofs.«415137_j32023276159359_3_alg».proof.Proof.KeysValues
import Idealize.ShloMosaic.Adequacy
import Idealize.ShloMosaic.Init

noncomputable section

namespace Cert.Proof

open Idealize.ShloMosaic Idealize.ShloMosaic.TcCoe Idealize.SL.Sem Cert.Attend

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealized kernel's run: the result array ends at `attend` of the queries and of the keys and values the
    region finds, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v10)
          = attend (m ((c.tc : Thread Cert.KernelIdeal.nD Cert.KernelIdeal.τ).loc Cert.KernelIdeal.main_arg0))
              (Cert.KernelIdeal.Gen.V m c Cert.KernelIdeal.main_v4) (Cert.KernelIdeal.Gen.V m c Cert.KernelIdeal.main_v9)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) :=
  (θ_run Cert.KernelIdeal.defs _ _).mono
    (fun _ h c => ⟨(h c).1.trans ((Cert.KernelIdeal.Result.final m c).trans (by rw [Cert.KernelIdeal.Gen.V_main_arg0])), (h c).2⟩)
    (Cert.KernelIdeal.Value.run_blocks m ρ)

/-- From memories agreeing on the arguments the two idealized programs end with equal results: the kernel's array is
    attention normalised after the mix, the reference's normalised before it, of the same real keys, values and
    logits. -/
theorem algebraic : Cert.algebraic_KernelIdeal_ReferenceIdeal := by
  intro m ρ m' ρ' hpre hagree
  refine ⟨fun c => attend (m ((c.tc : Thread Cert.KernelIdeal.nD Cert.KernelIdeal.τ).loc Cert.KernelIdeal.main_arg0))
      (Cert.KernelIdeal.Gen.V m c Cert.KernelIdeal.main_v4) (Cert.KernelIdeal.Gen.V m c Cert.KernelIdeal.main_v9),
    kernel_run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5⟩ := hagree c
  obtain ⟨r0, r1, r2, r3, r4, r5⟩ := Cert.FiniteInputs.real_of_pre _ _ _ _ _ _ (hpre c)
  rw [Cert.ReferenceIdeal.Read.val_main_v22_eq, g0, g1, g2, g3, g4, g5]
  show _ = attend _ (Cert.KernelIdeal.Gen.V m c Cert.KernelIdeal.main_v4) (Cert.KernelIdeal.Gen.V m c Cert.KernelIdeal.main_v9)
  rw [Cert.KernelIdeal.KeysValues.keys_eq, Cert.KernelIdeal.KeysValues.values_eq]
  funext i
  rw [Cert.ReferenceIdeal.Attended.result_at]
  exact normaliseThenMix_eq (by decide) _ _
    (fun k => isReal_dot _ _ (fun e => r0 _) (fun e => Cert.ReferenceIdeal.KeysValues.keys_real _ _ _ r1 r2 r3 _))
    (fun k => Cert.ReferenceIdeal.KeysValues.values_real _ _ _ r1 r4 r5 _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
